-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "t_eff_n" .f32 0x42480000#32 ((1677721625 / 33554432 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x784 : Shape := ⟨2, ![64, 784]⟩
abbrev S_ : Shape := ⟨0, ![]⟩

class Facts : Prop where
  bcast_S_S64x784 : S_.BroadcastsInDim S64x784 (![] : Fin 0 → Fin S64x784.rank)
  reducesTo_S64x784_S_d0_1 : S64x784.ReducesTo [0, 1] S_
  h_S_ : 0 < S_.numel

variable [Facts]

def fn {F : FTy → Type} [FloatOps F] (main_arg0 : FVec F S64x784 .f32) : IVec S_ 1 :=
  let main_v0 : FVec F S64x784 .f32 := Host.absf main_arg0
  let main_cst : FVec F S_ .f32 := constant S_ .f32 0x7F800000#32
  let main_v1 : FVec F S64x784 .f32 := broadcastInDim S64x784 ![] bcast_S_S64x784 main_cst
  let main_v2 : IVec S64x784 1 := cmpf .olt main_v0 main_v1
  let main_c : IVec S_ 1 := constantI S_ 1 1#1
  let main_v3 : IVec S_ 1 := (fun x v => Host.reduce IntOp.andi x v reducesTo_S64x784_S_d0_1 h_S_) main_v2 main_c
  main_v3
-- ==== Kernel.lean ====
abbrev S64x784 : Shape := ⟨2, ![64, 784]⟩
abbrev S50176x1 : Shape := ⟨2, ![50176, 1]⟩
abbrev S50176x1000 : Shape := ⟨2, ![50176, 1000]⟩
abbrev S1024x1 : Shape := ⟨2, ![1024, 1]⟩
abbrev S1024x1000 : Shape := ⟨2, ![1024, 1000]⟩
abbrev S64x784x1000 : Shape := ⟨3, ![64, 784, 1000]⟩

abbrev nBuf : Space → Nat
  | .hbm => 4
  | .vmem => 4
  | .smem => 0
  | _ => 0

abbrev bufTy : (tb : Table) → Fin (tcTables nBuf tb) → BufTy
  | .hbm, ⟨0, _⟩ => ⟨S64x784, .f32⟩
  | .hbm, ⟨1, _⟩ => ⟨S50176x1, .f32⟩
  | .hbm, ⟨2, _⟩ => ⟨S50176x1000, .i32⟩
  | .hbm, ⟨3, _⟩ => ⟨S64x784x1000, .i32⟩
  | .local _ .vmem, ⟨0, _⟩ => ⟨S1024x1, .f32⟩
  | .local _ .vmem, ⟨1, _⟩ => ⟨S1024x1, .f32⟩
  | .local _ .vmem, ⟨2, _⟩ => ⟨S1024x1000, .i32⟩
  | .local _ .vmem, ⟨3, _⟩ => ⟨S1024x1000, .i32⟩
  | _, _ => ⟨S64x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x784_S50176x1 : S64x784.ShapeCasts S50176x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  broadcasts_S1024x1_S1024x1000 : S1024x1.Broadcasts S1024x1000
  natLt_1_32 : 1 < 32
  inb_S1024x1000_S1024x1000_0_0 : ∀ a, (![0, 0] : Fin 2 → Nat) a + S1024x1000.size a ≤ S1024x1000.size a
  h_S1024x1000 : 0 < S1024x1000.numel
  shapeCasts_S50176x1000_S64x784x1000 : S50176x1000.ShapeCasts S64x784x1000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S50176x1.size a
  hwx0_0 : ∀ i : grid0.Coords, EltTy.bits .f32 = 32 ∨ (Rect.block (s := S50176x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S50176x1000.size a
  hwx0_1 : ∀ i : grid0.Coords, EltTy.bits .i32 = 32 ∨ (Rect.block (s := S50176x1000) S1024x1000.size (cc0_transform_1 i) (hinb0_1 i)).WholeWords (EltTy.packing .i32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x784 : Shape := ⟨2, ![64, 784]⟩
abbrev S50176 : Shape := ⟨1, ![50176]⟩
abbrev S_ : Shape := ⟨0, ![]⟩
abbrev S50176x1000 : Shape := ⟨2, ![50176, 1000]⟩
abbrev S50176x1 : Shape := ⟨2, ![50176, 1]⟩
abbrev S50176x2 : Shape := ⟨2, ![50176, 2]⟩
abbrev S64x784x1000 : Shape := ⟨3, ![64, 784, 1000]⟩

abbrev nBuf : Space → Nat
  | .hbm => 49
  | .vmem => 0
  | .smem => 0
  | _ => 0

abbrev bufTy : (tb : Table) → Fin (tcTables nBuf tb) → BufTy
  | .hbm, ⟨0, _⟩ => ⟨S64x784, .f32⟩
  | .hbm, ⟨1, _⟩ => ⟨S50176, .f32⟩
  | .hbm, ⟨2, _⟩ => ⟨S_, .f32⟩
  | .hbm, ⟨3, _⟩ => ⟨S50176, .f32⟩
  | .hbm, ⟨4, _⟩ => ⟨S50176, .i1⟩
  | .hbm, ⟨5, _⟩ => ⟨S_, .f32⟩
  | .hbm, ⟨6, _⟩ => ⟨S50176, .f32⟩
  | .hbm, ⟨7, _⟩ => ⟨S50176, .f32⟩
  | .hbm, ⟨8, _⟩ => ⟨S50176, .f32⟩
  | .hbm, ⟨9, _⟩ => ⟨S_, .f32⟩
  | .hbm, ⟨10, _⟩ => ⟨S_, .f32⟩
  | .hbm, ⟨11, _⟩ => ⟨S50176, .f32⟩
  | .hbm, ⟨12, _⟩ => ⟨S50176, .f32⟩
  | .hbm, ⟨13, _⟩ => ⟨S50176, .f32⟩
  | .hbm, ⟨14, _⟩ => ⟨S_, .f32⟩
  | .hbm, ⟨15, _⟩ => ⟨S50176, .f32⟩
  | .hbm, ⟨16, _⟩ => ⟨S50176, .f32⟩
  | .hbm, ⟨17, _⟩ => ⟨S_, .f32⟩
  | .hbm, ⟨18, _⟩ => ⟨S50176, .f32⟩
  | .hbm, ⟨19, _⟩ => ⟨S50176, .f32⟩
  | .hbm, ⟨20, _⟩ => ⟨S50176, .i32⟩
  | .hbm, ⟨21, _⟩ => ⟨S_, .i32⟩
  | .hbm, ⟨22, _⟩ => ⟨S_, .i32⟩
  | .hbm, ⟨23, _⟩ => ⟨S50176, .i32⟩
  | .hbm, ⟨24, _⟩ => ⟨S50176, .i32⟩
  | .hbm, ⟨25, _⟩ => ⟨S50176, .i32⟩
  | .hbm, ⟨26, _⟩ => ⟨S_, .i32⟩
  | .hbm, ⟨27, _⟩ => ⟨S50176x1000, .i32⟩
  | .hbm, ⟨28, _⟩ => ⟨S_, .i32⟩
  | .hbm, ⟨29, _⟩ => ⟨S50176, .i32⟩
  | .hbm, ⟨30, _⟩ => ⟨S_, .i32⟩
  | .hbm, ⟨31, _⟩ => ⟨S50176, .i32⟩
  | .hbm, ⟨32, _⟩ => ⟨S50176, .i1⟩
  | .hbm, ⟨33, _⟩ => ⟨S_, .i32⟩
  | .hbm, ⟨34, _⟩ => ⟨S50176, .i32⟩
  | .hbm, ⟨35, _⟩ => ⟨S50176, .i32⟩
  | .hbm, ⟨36, _⟩ => ⟨S50176, .i32⟩
  | .hbm, ⟨37, _⟩ => ⟨S_, .i32⟩
  | .hbm, ⟨38, _⟩ => ⟨S50176, .i32⟩
  | .hbm, ⟨39, _⟩ => ⟨S50176, .i1⟩
  | .hbm, ⟨40, _⟩ => ⟨S_, .i32⟩
  | .hbm, ⟨41, _⟩ => ⟨S50176, .i32⟩
  | .hbm, ⟨42, _⟩ => ⟨S50176, .i32⟩
  | .hbm, ⟨43, _⟩ => ⟨S50176, .i32⟩
  | .hbm, ⟨44, _⟩ => ⟨S50176x1, .i32⟩
  | .hbm, ⟨45, _⟩ => ⟨S50176x1, .i32⟩
  | .hbm, ⟨46, _⟩ => ⟨S50176x2, .i32⟩
  | .hbm, ⟨47, _⟩ => ⟨S50176x1000, .i32⟩
  | .hbm, ⟨48, _⟩ => ⟨S64x784x1000, .i32⟩
  | _, _ => ⟨S64x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_c_6 : Ref sig .tc := ⟨.hbm, 30, rfl⟩
abbrev main_v17 : Ref sig .tc := ⟨.hbm, 31, rfl⟩
abbrev main_v18 : Ref sig .tc := ⟨.hbm, 32, rfl⟩
abbrev main_c_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_8 : Ref sig .tc := ⟨.hbm, 37, rfl⟩
abbrev main_v22 : Ref sig .tc := ⟨.hbm, 38, rfl⟩
abbrev main_v23 : Ref sig .tc := ⟨.hbm, 39, rfl⟩
abbrev main_c_9 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  shapeCasts_S64x784_S50176 : S64x784.ShapeCasts S50176
  bcast_S_S50176 : S_.BroadcastsInDim S50176 (![] : Fin 0 → Fin S50176.rank)
  bcast_S_S50176x1000 : S_.BroadcastsInDim S50176x1000 (![] : Fin 0 → Fin S50176x1000.rank)
  bcast_S50176_S50176x1_0 : S50176.BroadcastsInDim S50176x1 (![0] : Fin 1 → Fin S50176x1.rank)
  concatenates_S50176x1_S50176x1_S50176x2_d1 : Shape.Concatenates [S50176x1, S50176x1] S50176x2 1
  shapeCasts_S50176x1000_S64x784x1000 : S50176x1000.ShapeCasts S64x784x1000
  scatter_S50176x1000_S50176x2_S50176_n_01_01_1_wf : ScatterDims.WF S50176x1000 S50176x2 S50176 [] [0, 1] [0, 1] 1

variable [Facts₀]

def scatter_S50176x1000_S50176x2_S50176_n_01_01_1 : ScatterDims S50176x1000 S50176x2 S50176 where
  updateWindowDims := []
  insertedWindowDims := [0, 1]
  scatterDimsToOperandDims := [0, 1]
  indexVectorDim := 1
  wf := scatter_S50176x1000_S50176x2_S50176_n_01_01_1_wf

class Facts : Prop extends Facts₀ where

variable [Facts]
-- ==== Proof.Latency.lean ====
/-
  The spike latency of one intensity, as a word, and the one-hot row it selects.

  For an intensity `x` and the threshold `θ = f32(0.2)`, a pixel above threshold (`θ < x`) fires at the time step
  `trunc (log (x / (x - θ)) · c)`, with `c = f32(0.05) · 1000` the effective time constant times the number of
  steps; a pixel at or below threshold gets the step `1000`, one past the last. The raster row of the pixel has a
  one at that step and zeros elsewhere.

  The two programs scale the logarithm differently, `L · c` against `(f32(0.05) · L) · 1000`: the same extended
  real, by commutativity and associativity of the product. For a finite intensity above threshold the ratio
  `x / (x - θ)` is at least one (because `θ > 0`), so its logarithm and the scaled value are non-negative reals and
  the truncated, clamped word is non-negative read signed.
-/
import Idealize.ShloMosaic.PureOps.Ideal
import Idealize.ShloMosaic.Lib.ValueIdx
import Idealize.ShloMosaic.Lib.Pipeline.Value

noncomputable section

namespace Cert.Spike

open Idealize.ShloMosaic Idealize.ShloMosaic.ValueIdx

/-! ## The constants -/

/-- The threshold `f32(0.2)` is the rational `13421773 / 2^26`. -/
theorem theta_eq : Ideal.ofBits .f32 0x3E4CCCCD#32 = ((13421773 / 67108864 : ℝ) : EReal) := by
  simp [Ideal.ofBits, Ideal.ieee, -EReal.coe_mul]; norm_num

/-- The time constant `f32(0.05)` is the rational `13421773 / 2^28`. -/
theorem teff_eq : Ideal.ofBits .f32 0x3D4CCCCD#32 = ((13421773 / 268435456 : ℝ) : EReal) := by
  simp [Ideal.ofBits, Ideal.ieee, -EReal.coe_mul]; norm_num

/-- The number of steps `1000.0`. -/
theorem steps_eq : Ideal.ofBits .f32 0x447A0000#32 = ((1000 : ℝ) : EReal) := by
  simp [Ideal.ofBits, Ideal.ieee, -EReal.coe_mul]; norm_num

/-- `1.0`. -/
theorem one_eq : Ideal.ofBits .f32 0x3F800000#32 = 1 := by
  simp [Ideal.ofBits, Ideal.ieee, -EReal.coe_mul]; norm_num

/-- The threshold. -/
abbrev θ : EReal := Ideal.ofBits .f32 0x3E4CCCCD#32

/-- The scale `f32(0.05) · 1000` of the logarithm. -/
abbrev scale : EReal := ((1677721625 / 33554432 : ℝ) : EReal)

/-- The time constant times the number of steps is the scale. -/
theorem teff_mul_steps : Ideal.ofBits .f32 0x3D4CCCCD#32 * Ideal.ofBits .f32 0x447A0000#32 = scale := by
  rw [teff_eq, steps_eq, ← EReal.coe_mul]; norm_num

/-! ## The latency word -/

/-- The time step at which a pixel of intensity `x` fires. -/
def latency (x : EReal) : BitVec 32 :=
  if θ < x then Ideal.fptosi 32 (Ideal.log (Ideal.div x (x - θ)) * scale) else 1000#32

/-- A selection on the comparison `x > t` is a case split on `t < x`. -/
theorem select_ogt {α : Type} (x t : EReal) (a b : α) :
    Scalar.select (Ideal.cmp .ogt x t) a b = if t < x then a else b := by
  unfold Scalar.select Ideal.cmp
  by_cases h : t < x <;> simp [h]

/-- The kernel's operations on one intensity give the latency: above threshold the inner selection is the ratio. -/
theorem latency_of_kernel_ops (x : EReal) :
    Scalar.select (Ideal.cmp .ogt x θ)
      (Ideal.fptosi 32 (Ideal.log (Scalar.select (Ideal.cmp .ogt x θ) (Ideal.div x (x - θ))
        (Ideal.ofBits .f32 0x3F800000#32)) * scale)) (1000#32) = latency x := by
  rw [select_ogt, select_ogt]
  unfold latency
  by_cases h : θ < x
  · rw [if_pos h, if_pos h, if_pos h]
  · rw [if_neg h, if_neg h]

/-- The reference's operations on one intensity give the same latency: `(f32(0.05) · L) · 1000 = L · scale`. -/
theorem latency_of_reference_ops (x : EReal) :
    Scalar.select (Ideal.cmp .ogt x θ)
      (Ideal.fptosi 32 (Ideal.ofBits .f32 0x3D4CCCCD#32 * Ideal.log (Scalar.select (Ideal.cmp .ogt x θ) (Ideal.div x (x - θ))
        (Ideal.ofBits .f32 0x3F800000#32)) * Ideal.ofBits .f32 0x447A0000#32)) (1000#32) = latency x := by
  rw [← latency_of_kernel_ops]
  congr 2
  rw [mul_comm (Ideal.ofBits .f32 0x3D4CCCCD#32), mul_assoc, teff_mul_steps]

/-! ## The latency of a finite intensity is non-negative -/

/-- A non-negative real truncates and clamps to a word that is non-negative read signed. -/
theorem fptosi_toInt_nonneg {s : ℝ} (hs : 0 ≤ s) : 0 ≤ (Ideal.fptosi 32 (s : EReal)).toInt := by
  unfold Ideal.fptosi
  rw [Ideal.toIntClamped_coe, if_pos hs, BitVec.toInt_ofInt]
  have h0 : (0 : ℤ) ≤ ⌊s⌋ := Int.floor_nonneg.2 hs
  have h1 : max (-((2 ^ (32 - 1) : ℕ) : ℤ)) (min (((2 ^ (32 - 1) : ℕ) : ℤ) - 1) ⌊s⌋) = min 2147483647 ⌊s⌋ := by
    norm_num
    omega
  rw [h1, Int.bmod_def]
  norm_num
  omega

theorem latency_toInt_nonneg (x : ℝ) : 0 ≤ (latency (x : EReal)).toInt := by
  unfold latency
  split_ifs with hv
  · have hθ : θ = ((13421773 / 67108864 : ℝ) : EReal) := theta_eq
    rw [hθ] at hv ⊢
    have hx : (13421773 / 67108864 : ℝ) < x := by exact_mod_cast hv
    have hy : x - 13421773 / 67108864 ≠ 0 := by linarith
    have hr : 1 ≤ x * (1 / (x - 13421773 / 67108864)) := by
      rw [mul_one_div, le_div_iff₀ (by linarith)]; linarith
    rw [← EReal.coe_sub, Ideal.div_coe hy, ← EReal.coe_mul, Ideal.log_coe, if_neg (by linarith), ← EReal.coe_mul]
    exact fptosi_toInt_nonneg (mul_nonneg (Real.log_nonneg hr) (by norm_num))
  · decide

/-! ## The one-hot row -/

/-- Entry `q` of the raster row of a pixel with latency word `T`: the comparison of the step counter with the
    latency, widened to a word. -/
def spike (T : BitVec 32) (q : ℕ) : BitVec 32 := (IntOp.cmpi .eq (BitVec.ofNat 32 q) T).setWidth 32

/-- For a step `q < 1000` the entry is one exactly when the latency, read signed, is `q`: a word is the step's word
    iff its signed value is the step. -/
theorem spike_eq (T : BitVec 32) (q : ℕ) (hq : q < 1000) :
    spike T q = if T.toInt = (q : ℤ) then 1#32 else 0#32 := by
  unfold spike IntOp.cmpi
  have hqi : (BitVec.ofNat 32 q).toInt = (q : ℤ) := by
    rw [BitVec.toInt_eq_toNat_of_lt (by rw [BitVec.toNat_ofNat]; omega), BitVec.toNat_ofNat]
    omega
  by_cases h : T.toInt = (q : ℤ)
  · have hT : BitVec.ofNat 32 q = T := BitVec.eq_of_toInt_eq (hqi.trans h.symm)
    rw [if_pos h, hT]; simp
  · have hT : BitVec.ofNat 32 q ≠ T := fun e => h (by rw [← e, hqi])
    rw [if_neg h, beq_eq_false_iff_ne.2 hT]; rfl

/-! ## The raster, row by row -/

/-- The pixel `(r / 784, r % 784)` of the 64 x 784 image that flat row `r` of the raster belongs to. -/
def pix (r : Fin 50176) : (⟨2, ![64, 784]⟩ : Shape).Idx :=
  ix2 (⟨r.val / 784, by have := r.isLt; omega⟩ : Fin 64) (⟨r.val % 784, by have := r.isLt; omega⟩ : Fin 784)

/-- The raster as 50176 rows of 1000 steps: row `r` is the one-hot row of the latency of pixel `pix r`. -/
def rows (x : (⟨2, ![64, 784]⟩ : Shape).Idx → EReal) : (⟨2, ![50176, 1000]⟩ : Shape).Idx → BitVec 32 :=
  fun i => spike (latency (x (pix ⟨(i 0).val, idx2_lt0 i⟩))) (i 1).val

/-- Row `r`, step `q` of the raster. -/
theorem rows_apply (x : (⟨2, ![64, 784]⟩ : Shape).Idx → EReal) (r : Fin 50176) (q : Fin 1000) :
    rows x (ix2 r q) = spike (latency (x (pix r))) q.val := rfl

/-- The raster at an index given by its coordinates' values. -/
theorem rows_at (x : (⟨2, ![64, 784]⟩ : Shape).Idx → EReal) (I : (⟨2, ![50176, 1000]⟩ : Shape).Idx) (r : Fin 50176) (q : Fin 1000)
    (h0 : (I 0).val = r.val) (h1 : (I 1).val = q.val) : rows x I = spike (latency (x (pix r))) q.val := by
  obtain rfl : I = ix2 r q := by
    funext a
    match a with
    | ⟨0, _⟩ => exact Fin.ext h0
    | ⟨1, _⟩ => exact Fin.ext h1
  rfl

/-- The image flattened to a column of 50176 entries holds, in row `r`, the intensity of pixel `pix r`: both sit at
    row-major position `r`. -/
theorem column_at {α : Type} (x : (⟨2, ![64, 784]⟩ : Shape).Idx → α) (h : (⟨2, ![64, 784]⟩ : Shape).ShapeCasts ⟨2, ![50176, 1]⟩)
    (J : (⟨2, ![50176, 1]⟩ : Shape).Idx) (r : Fin 50176) (h0 : (J 0).val = r.val) :
    shapeCast ⟨2, ![50176, 1]⟩ x h J = x (pix r) :=
  shapeCast_apply x h J (pix r) (by
    rw [Shape.rowMajor_val_two, Shape.rowMajor_val_two]
    have h1 : (J 1).val < 1 := (J 1).isLt
    have hr := r.isLt
    show r.val / 784 * 784 + r.val % 784 = (J 0).val * 1 + (J 1).val
    omega)

end Cert.Spike

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.KernelValue.lean ====
/-
  The kernel's raster.

  The image is flattened to a column of 50176 intensities; grid point `t` of 49 loads rows `1024 t … 1024 t + 1023`
  of the column and stores the 1024 x 1000 block whose entry `(p, q)` compares the step counter `q` with the latency
  of row `p`'s intensity. Row `p` of block `t` is row `1024 t + p` of the raster, the 49 blocks tile the 50176 rows,
  so after the run the raster holds, in every row, the one-hot row of that row's pixel; the result is that array
  reshaped to 64 x 784 x 1000.
-/
import proofs.«105358_j11476152615371_1_alg».proof.Proof.Gen.KernelIdeal.Frame
import proofs.«105358_j11476152615371_1_alg».proof.Proof.Latency
import proofs.«105358_j11476152615371_1_alg».proof.Proof.LibColumn
import Idealize.ShloMosaic.Lib.Pipeline.Value
import Idealize.ShloMosaic.Lib.ValueIdx
import Idealize.ShloMosaic.Lib.StableHlo.Run
import Idealize.ShloMosaic.PureOps.IdealRules

noncomputable section

namespace Cert.KernelIdeal.KValue

open Cert.KernelIdeal Cert.KernelIdeal.Gen Idealize.ShloMosaic Idealize.ShloMosaic.TcCoe Idealize.ShloMosaic.ValueIdx
open Idealize.SL.Sem Cert.Spike
open Idealize.ShloMosaic.Pipeline (Dat)

variable (m : (ℓ : Loc nD τ sig) → Buf (Elt Ideal) ℓ) (ρ : Dev nD → PrngReg)

/-! ## The body's value at an index -/

/-- The named constant is the scale of the logarithm. -/
theorem scale_named : Named.named (F := Ideal) κ "t_eff_n" (φ := .f32) 0x42480000#32 = scale :=
  IdealRules.named_const.ideal_named_scalar _ _ _ _ rfl

/-- The step counter at `(p, q)` is `q`. -/
theorem iota_apply (h : S1024x1000.Iotas .tc 32 [1]) (p : Fin 1024) (q : Fin 1000) :
    iota .tc S1024x1000 32 [1] h (ix2 p q) = BitVec.ofNat 32 q.val := by
  show BitVec.ofNat 32 (0 * 1000 + q.val) = _
  rw [Nat.zero_mul, Nat.zero_add]

/-- Entry `(p, q)` of the block the body stores is entry `q` of the one-hot row of the latency of the loaded column's
    row `p`. -/
theorem pay_apply (v0 : Vec Ideal S1024x1 .f32) (p : Fin 1024) (q : Fin 1000) :
    k0_pay1 (F := Ideal) v0 (ix2 p q) = spike (latency (v0 (ix2 p (0 : Fin 1)))) q.val := by
  unfold k0_pay1 spike
  rw [← latency_of_kernel_ops]
  dsimp only
  rw [shapeCast_self, scale_named]
  show (IntOp.cmpi .eq (iota .tc S1024x1000 32 [1] _ (ix2 p q)) (broadcastTo S1024x1000 _ _ (ix2 p q))).setWidth 32 = _
  rw [iota_apply, Cert.Proof.Column.broadcastTo_a1_ab_apply]
  rfl

/-! ## The column the region finds -/

/-- The region finds the flattened image in its input array: the reshape of the argument. -/
theorem V_main_v0 (c : Dev nD) :
    (V m c main_v0 : S50176x1.Idx → EReal)
      = shapeCast S50176x1 (m ((c : Thread nD τ).loc main_arg0)) shapeCasts_S64x784_S50176x1 := by
  show StableHlo.after hostOps0 (fun b => m (c, b)) (Proc.devRef .tc main_v0) = _
  after_results
  rfl

/-! ## From blocks to the array -/

theorem hz : (![0, 0] : Fin 2 → Nat) = fun _ => 0 := funext fun a => by fin_cases a <;> rfl

/-- The index maps, decided over the grid: point `t` reads and writes block `t` of the rows, block `0` of the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A point is below 49. -/
theorem point_lt (t : Fin cfg0.N) : t.val < 49 :=
  Nat.lt_of_lt_of_eq (m := grid0.N) t.isLt N_0

/-- WHAT POINT `t` WRITES BACK is block `t` of the raster of the argument. -/
theorem flushed_eq (c : Dev nD) (t : Fin cfg0.N) :
    (dats m 0 c).flushed 1 t
      = ((cfg0.win 1).blk t).view.read (Elt Ideal) (rows (m ((c : Thread nD τ).loc main_arg0))) := by
  show (cfg0.win 1).cut (grid0.coords t) ((dats m 0 c).after 1 t) = _
  rw [after0_1]
  unfold out0_1
  rw [View.canon_unit_zero hz]
  simp only [View.ld_unit_zero (S := S1024x1) hz]
  obtain ⟨e0, e1, e2, e3⟩ := idx_facts t
  have ht := point_lt t
  funext j
  obtain ⟨p, q, rfl⟩ : ∃ (p : Fin 1024) (q : Fin 1000), j = ix2 p q := ⟨j 0, j 1, eq_ix2 (n0 := 1024) (n1 := 1000) j⟩
  have hr : 1024 * t.val + p.val < 50176 := by have := p.isLt; omega
  show k0_pay1 (F := Ideal) (iblk m c 0 t) (ix2 p q)
    = rows (m ((c : Thread nD τ).loc main_arg0)) (((cfg0.win 1).blk t).view.emb (ix2 p q))
  refine (pay_apply (iblk m c 0 t) p q).trans ?_
  rw [rows_at _ _ ⟨1024 * t.val + p.val, hr⟩ q
    (by show win0_1.index t (0 : Fin 2) * 1024 + 1 * p.val = 1024 * t.val + p.val; omega)
    (by show win0_1.index t (1 : Fin 2) * 1000 + 1 * q.val = q.val; omega)]
  congr 2
  show V m c main_v0 (((cfg0.win 0).blk t).view.emb (ix2 p (0 : Fin 1))) = _
  rw [V_main_v0]
  exact column_at _ _ _ ⟨1024 * t.val + p.val, hr⟩
    (by show win0_0.index t (0 : Fin 2) * 1024 + 1 * p.val = 1024 * t.val + p.val; omega)

/-- An index of the raster is in point `t`'s block iff each coordinate is in the block's range on its axis. -/
theorem mem_blk (t : Fin cfg0.N) (i : S50176x1000.Idx) :
    i ∈ ((cfg0.win 1).blk t).view.set ↔ ∀ a : Fin 2, win0_1.index t a * S1024x1000.size a ≤ (i a).val
      ∧ (i a).val < win0_1.index t a * S1024x1000.size a + S1024x1000.size a := by
  show i ∈ ((View.whole main_v1).slice (win0_1.rect t)).set ↔ _
  rw [View.set_slice_whole, Rect.mem_set_unit]
  exact Iff.rfl

/-- Every index of the raster is in the block of the point `row / 1024`. -/
theorem cover (i : S50176x1000.Idx) :
    ∃ t : Fin cfg0.N, (cfg0.win 1).flush t = true ∧ i ∈ ((cfg0.win 1).blk t).view.set := by
  have h0 : (i 0).val < 50176 := (i 0).isLt
  have h1 : (i 1).val < 1000 := (i 1).isLt
  have hN : (i 0).val / 1024 < cfg0.N := Nat.lt_of_lt_of_eq (m := 49) (by omega) N_0.symm
  refine ⟨⟨(i 0).val / 1024, hN⟩, flush0_1 _, ?_⟩
  obtain ⟨-, -, e2, e3⟩ := idx_facts ⟨(i 0).val / 1024, hN⟩
  rw [mem_blk]
  intro a
  match a with
  | ⟨0, _⟩ =>
    show win0_1.index ⟨(i 0).val / 1024, hN⟩ (0 : Fin 2) * 1024 ≤ (i 0).val
      ∧ (i 0).val < win0_1.index ⟨(i 0).val / 1024, hN⟩ (0 : Fin 2) * 1024 + 1024
    rw [e2]; show (i 0).val / 1024 * 1024 ≤ (i 0).val ∧ (i 0).val < (i 0).val / 1024 * 1024 + 1024; omega
  | ⟨1, _⟩ =>
    show win0_1.index ⟨(i 0).val / 1024, hN⟩ (1 : Fin 2) * 1000 ≤ (i 1).val
      ∧ (i 1).val < win0_1.index ⟨(i 0).val / 1024, hN⟩ (1 : Fin 2) * 1000 + 1000
    rw [e3]; omega

/-- THE ARRAY after the run: the raster of the argument. -/
theorem final (c : Dev nD) :
    (dats m 0 c).arrAt 1 cfg0.N = rows (m ((c : Thread nD τ).loc main_arg0)) :=
  (dats m 0 c).arrAt_eq_of_cover 1 _ (fun t _ => flushed_eq m c t) cover

/-! ## The result: the raster reshaped -/

/-- After the reshape that follows the region, the result holds the raster reshaped to 64 x 784 x 1000. -/
theorem tail_eq (c : Dev nD) :
    Pipeline.afterTail₀ cfgs (dats m) 0 (V0 m) [hostOps1] c main_v2
      = shapeCast S64x784x1000 (rows (m ((c : Thread nD τ).loc main_arg0))) shapeCasts_S50176x1000_S64x784x1000 := by
  unfold Pipeline.afterTail₀
  show StableHlo.after hostOps1 _ (Proc.devRef .tc main_v2) = _
  after_results
  exact congrArg (fun a => shapeCast S64x784x1000 a shapeCasts_S50176x1000_S64x784x1000)
    ((Pipeline.withArrays_arr spec0 launch0.win.arr_inj c _ _ 1).trans (final m c))

/-- THE KERNEL'S RUN: every weakly fair execution terminates with the result at the raster of the argument, reshaped,
    and the argument unchanged. -/
theorem run : θ_run defs (onTc (τ := τ) (main (F := Ideal))) ⟨m, fun _ => 0, ρ⟩ fun r => ∀ c : Dev nD,
      r.2.mem ((c.tc : Thread nD τ).loc main_v2)
        = shapeCast S64x784x1000 (rows (m ((c.tc : Thread nD τ).loc main_arg0))) shapeCasts_S50176x1000_S64x784x1000
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

end Cert.KernelIdeal.KValue

end
-- ==== Proof.LibScatter.lean ====
/-
  THE HOST'S ACCUMULATING SCATTERS AND INDEXED READS OF A GRAPH PROGRAM, READ AT ONE ELEMENT.

  Four shapes of `stablehlo.scatter` (with an `add` body) and `stablehlo.gather`, each over an index array held as
  `[E, c]` with the index vector on axis 1, generic in the extents and in the width of the index words:

  * `segment_sum(v, idx)` of a vector `v : [E]` into `[N]` (update_window_dims `[]`, inserted_window_dims `[0]`,
    scatter_dims_to_operand_dims `[0]`): element `i` of the result is the operand's plus the sum of the `v[e]` whose
    index, read signed, is `i` (`vecScatterAdd_apply_of`);
  * `A.at[rows, cols].add(v)` of a matrix `A : [N, M]` (inserted_window_dims `[0, 1]`, scatter_dims_to_operand_dims
    `[0, 1]`, the index array `[E, 2]`): entry `(i, j)` is the operand's plus the sum of the `v[e]` whose two index
    words, read signed, are `(i, j)` (`pointScatterAdd_apply_of`);
  * `table[idx]` of a vector table `[N]` (collapsed_slice_dims `[0]`, start_index_map `[0]`, slice_sizes `[1]`):
    element `e` is the table at the index read signed and clamped into `[0, N − 1]` (`vecGather_apply_of`);
  * `table[idx]` of a table of rows `[N, B]` (offset_dims `[1]`, collapsed_slice_dims `[0]`, start_index_map `[0]`,
    slice_sizes `[1, B]`): row `e` is the table's row at the clamped index (`rowGather_apply_of`).

  A scatter's index is NOT clamped: an update whose index is negative or past the extent lands nowhere. A gather's is.
-/
import Idealize.ShloMosaic.PureOps.Ideal
import Idealize.ShloMosaic.Lib.ValueIdx

noncomputable section

open scoped BigOperators

namespace Cert.LibScatter

open Idealize.ShloMosaic Idealize.ShloMosaic.ValueIdx

/-- A sum over a rank-1 index set is the sum over its coordinate range. -/
theorem sum_idx1 {M : Type*} [AddCommMonoid M] {n : Nat} (f : (⟨1, ![n]⟩ : Shape).Idx → M) :
    ∑ i, f i = ∑ a : Fin n, f (ix1 a) :=
  Fintype.sum_equiv
    (⟨fun i => i 0, ix1, fun i => (eq_ix1 i).symm, fun _ => rfl⟩ : (⟨1, ![n]⟩ : Shape).Idx ≃ Fin n)
    f (fun a => f (ix1 a)) (fun i => congrArg f (eq_ix1 i))

/-! ## The scatter-add of a vector of updates into a vector -/

/-- The dimension numbers of `segment_sum` of a vector: operand `[N]`, scatter indices `[E, 1]`, updates `[E]`;
    their conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecCoordinates

variable {N E w : Nat} (wf : ScatterDims.WF ⟨1, ![N]⟩ ⟨2, ![E, 1]⟩ ⟨1, ![E]⟩ [] [0] [0] 1)

/-- On the operand's one axis the window of update `e` starts at the scatter index `idx[e, 0]`, read signed. -/
theorem vec_start (j : (⟨1, ![E]⟩ : Shape).Idx) (idx : IVec ⟨2, ![E, 1]⟩ w) :
    (vecScatterDims N E wf).start j idx 0 = (idx (ix2 (j 0) ⟨0, Nat.one_pos⟩)).toInt := by
  unfold ScatterDims.start
  rw [dif_pos (show (0 : Fin 1) ∈ (vecScatterDims N E wf).scatterDimsToOperandDims from
    List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- The operand's axis is an inserted one: an update is a single element, with no window coordinate. -/
theorem vec_window (j : (⟨1, ![E]⟩ : Shape).Idx) : (vecScatterDims N E wf).window j 0 = 0 := by
  unfold ScatterDims.window
  rw [dif_neg (show (0 : Fin 1) ∉ (vecScatterDims N E wf).sKept by
    simp [ScatterDims.sKept, Shape.kept, List.mem_filter])]

/-- Update `e` lands on element `i` exactly when its scatter index, read signed, is `i` (an index outside
    `[0, N)` is no element, so such an update lands nowhere). -/
theorem vec_resultIdx?_eq_some_iff (j : (⟨1, ![E]⟩ : Shape).Idx) (idx : IVec ⟨2, ![E, 1]⟩ w)
    (i : (⟨1, ![N]⟩ : Shape).Idx) :
    (vecScatterDims N E wf).resultIdx? j idx = some i ↔
      (idx (ix2 (j 0) ⟨0, Nat.one_pos⟩)).toInt = ((i 0).val : Int) := by
  have hs0 := vec_start wf j idx
  have hw0 := vec_window wf j
  have hi0 : (i 0).val < N := (i 0).isLt
  unfold ScatterDims.resultIdx?
  by_cases hall : ∀ a, 0 ≤ (vecScatterDims N E wf).start j idx a + (vecScatterDims N E wf).window j a ∧
      (vecScatterDims N E wf).start j idx a + (vecScatterDims N E wf).window j a
        < (⟨1, ![N]⟩ : Shape).size a
  · rw [dif_pos hall]
    constructor
    · intro h
      have h' := Option.some.inj h
      have h0 : ((vecScatterDims N E wf).start j idx 0 + (vecScatterDims N E wf).window j 0).toNat
          = (i 0).val := congrArg (fun f => (f 0).val) h'
      have ha0 := (hall 0).1
      rw [hs0, hw0] at h0 ha0
      omega
    · intro h0
      congr 1
      funext a
      refine Fin.ext ?_
      match a with
      | ⟨0, _⟩ =>
        show ((vecScatterDims N E wf).start j idx 0 + (vecScatterDims N E wf).window j 0).toNat = (i 0).val
        rw [hs0, hw0, h0]; omega
  · rw [dif_neg hall]
    constructor
    · intro h; cases h
    · intro h0
      refine absurd ?_ hall
      intro a
      match a with
      | ⟨0, _⟩ =>
        show 0 ≤ (vecScatterDims N E wf).start j idx 0 + (vecScatterDims N E wf).window j 0 ∧
          (vecScatterDims N E wf).start j idx 0 + (vecScatterDims N E wf).window j 0 < (N : Int)
        rw [hs0, hw0, h0]; omega

end VecCoordinates

/-- segment_sum of a vector: element `i` of the result is `x i` plus the updates whose index word, read signed,
    is `i`. -/
theorem vecScatterAdd_apply_of {N E w : Nat} {wf : ScatterDims.WF ⟨1, ![N]⟩ ⟨2, ![E, 1]⟩ ⟨1, ![E]⟩ [] [0] [0] 1}
    (d : ScatterDims ⟨1, ![N]⟩ ⟨2, ![E, 1]⟩ ⟨1, ![E]⟩) (hd : d = vecScatterDims N E wf)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i) =
      x (ix1 i) + ∑ e ∈ Finset.univ.filter (fun e : Fin E =>
        (idx (ix2 e ⟨0, Nat.one_pos⟩)).toInt = (i.val : Int)), upd (ix1 e) := by
  subst hd
  unfold Ideal.hostScatterAdd
  congr 1
  rw [Finset.sum_filter, sum_idx1, Finset.sum_filter]
  refine Finset.sum_congr rfl fun e _ => ?_
  have hiff := vec_resultIdx?_eq_some_iff wf (ix1 e) idx (ix1 i)
  by_cases h : (idx (ix2 e ⟨0, Nat.one_pos⟩)).toInt = (i.val : Int)
  · rw [if_pos h, if_pos (hiff.2 h)]
  · rw [if_neg h, if_neg (fun hr => h (hiff.1 hr))]

/-! ## The scatter-add of a vector of updates into the entries of a matrix -/

/-- The dimension numbers of `A.at[rows, cols].add(v)`: operand `[N, M]`, scatter indices `[E, 2]` (a row and a
    column per update), updates `[E]`. -/
abbrev pointScatterDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

section PointCoordinates

variable {N M E w : Nat} (wf : ScatterDims.WF ⟨2, ![N, M]⟩ ⟨2, ![E, 2]⟩ ⟨1, ![E]⟩ [] [0, 1] [0, 1] 1)

/-- On the row axis the window of update `e` starts at the first index word `idx[e, 0]`, read signed. -/
theorem point_start_row (j : (⟨1, ![E]⟩ : Shape).Idx) (idx : IVec ⟨2, ![E, 2]⟩ w) :
    (pointScatterDims N M E wf).start j idx 0 = (idx (ix2 (j 0) ⟨0, by omega⟩)).toInt := by
  unfold ScatterDims.start
  rw [dif_pos (show (0 : Fin 2) ∈ (pointScatterDims N M E wf).scatterDimsToOperandDims from
    List.mem_cons_self)]
  have hsi : (pointScatterDims N M E wf).siIdx j
      ⟨List.idxOf (0 : Fin 2) (pointScatterDims N M E wf).scatterDimsToOperandDims,
        List.idxOf_lt_length_iff.2 List.mem_cons_self⟩ = ix2 (j 0) ⟨0, by omega⟩ := by
    funext b; refine Fin.ext ?_
    match b with
    | ⟨0, _⟩ => rfl
    | ⟨1, _⟩ => rfl
  rw [hsi]
  rfl

/-- On the column axis it starts at the second index word `idx[e, 1]`, read signed. -/
theorem point_start_col (j : (⟨1, ![E]⟩ : Shape).Idx) (idx : IVec ⟨2, ![E, 2]⟩ w) :
    (pointScatterDims N M E wf).start j idx 1 = (idx (ix2 (j 0) ⟨1, by omega⟩)).toInt := by
  have hmem : (1 : Fin 2) ∈ (pointScatterDims N M E wf).scatterDimsToOperandDims :=
    List.mem_cons_of_mem _ (List.mem_singleton.mpr rfl)
  unfold ScatterDims.start
  rw [dif_pos hmem]
  have hsi : (pointScatterDims N M E wf).siIdx j
      ⟨List.idxOf (1 : Fin 2) (pointScatterDims N M E wf).scatterDimsToOperandDims,
        List.idxOf_lt_length_iff.2 hmem⟩ = ix2 (j 0) ⟨1, by omega⟩ := by
    funext b; refine Fin.ext ?_
    match b with
    | ⟨0, _⟩ => rfl
    | ⟨1, _⟩ => rfl
  rw [hsi]
  rfl

/-- Both operand axes are inserted ones: an update is a single entry, with no window coordinate. -/
theorem point_window (j : (⟨1, ![E]⟩ : Shape).Idx) (a : Fin 2) : (pointScatterDims N M E wf).window j a = 0 := by
  unfold ScatterDims.window
  rw [dif_neg (show a ∉ (pointScatterDims N M E wf).sKept by
    match a with
    | ⟨0, _⟩ => simp [ScatterDims.sKept, Shape.kept, List.mem_filter]
    | ⟨1, _⟩ => simp [ScatterDims.sKept, Shape.kept, List.mem_filter])]

/-- Update `e` lands on entry `i` exactly when its two index words, read signed, are `i`'s row and column (a word
    outside the extent names no row or column, so such an update lands nowhere). -/
theorem point_resultIdx?_eq_some_iff (j : (⟨1, ![E]⟩ : Shape).Idx) (idx : IVec ⟨2, ![E, 2]⟩ w)
    (i : (⟨2, ![N, M]⟩ : Shape).Idx) :
    (pointScatterDims N M E wf).resultIdx? j idx = some i ↔
      (idx (ix2 (j 0) ⟨0, by omega⟩)).toInt = ((i 0).val : Int) ∧
        (idx (ix2 (j 0) ⟨1, by omega⟩)).toInt = ((i 1).val : Int) := by
  have hs0 := point_start_row wf j idx
  have hs1 := point_start_col wf j idx
  have hw0 := point_window wf j 0
  have hw1 := point_window wf j 1
  have hi0 := idx2_lt0 i
  have hi1 := idx2_lt1 i
  unfold ScatterDims.resultIdx?
  by_cases hall : ∀ a, 0 ≤ (pointScatterDims N M E wf).start j idx a + (pointScatterDims N M E wf).window j a ∧
      (pointScatterDims N M E wf).start j idx a + (pointScatterDims N M E wf).window j a
        < (⟨2, ![N, M]⟩ : Shape).size a
  · rw [dif_pos hall]
    constructor
    · intro h
      have h' := Option.some.inj h
      have h0 : ((pointScatterDims N M E wf).start j idx 0 + (pointScatterDims N M E wf).window j 0).toNat
          = (i 0).val := congrArg (fun f => (f 0).val) h'
      have h1 : ((pointScatterDims N M E wf).start j idx 1 + (pointScatterDims N M E wf).window j 1).toNat
          = (i 1).val := congrArg (fun f => (f 1).val) h'
      have ha0 := (hall 0).1
      have ha1 := (hall 1).1
      rw [hs0, hw0] at h0 ha0
      rw [hs1, hw1] at h1 ha1
      refine ⟨by omega, by omega⟩
    · rintro ⟨h0, h1⟩
      congr 1
      funext a
      refine Fin.ext ?_
      match a with
      | ⟨0, _⟩ =>
        show ((pointScatterDims N M E wf).start j idx 0 + (pointScatterDims N M E wf).window j 0).toNat = (i 0).val
        rw [hs0, hw0, h0]; omega
      | ⟨1, _⟩ =>
        show ((pointScatterDims N M E wf).start j idx 1 + (pointScatterDims N M E wf).window j 1).toNat = (i 1).val
        rw [hs1, hw1, h1]; omega
  · rw [dif_neg hall]
    constructor
    · intro h; cases h
    · rintro ⟨h0, h1⟩
      refine absurd ?_ hall
      intro a
      match a with
      | ⟨0, _⟩ =>
        show 0 ≤ (pointScatterDims N M E wf).start j idx 0 + (pointScatterDims N M E wf).window j 0 ∧
          (pointScatterDims N M E wf).start j idx 0 + (pointScatterDims N M E wf).window j 0 < (N : Int)
        rw [hs0, hw0, h0]; omega
      | ⟨1, _⟩ =>
        show 0 ≤ (pointScatterDims N M E wf).start j idx 1 + (pointScatterDims N M E wf).window j 1 ∧
          (pointScatterDims N M E wf).start j idx 1 + (pointScatterDims N M E wf).window j 1 < (M : Int)
        rw [hs1, hw1, h1]; omega

end PointCoordinates

/-- A.at[rows, cols].add(v): entry `(i, j)` is `x (i, j)` plus the updates whose two index words, read signed,
    are `(i, j)`. -/
theorem pointScatterAdd_apply_of {N M E w : Nat}
    {wf : ScatterDims.WF ⟨2, ![N, M]⟩ ⟨2, ![E, 2]⟩ ⟨1, ![E]⟩ [] [0, 1] [0, 1] 1}
    (d : ScatterDims ⟨2, ![N, M]⟩ ⟨2, ![E, 2]⟩ ⟨1, ![E]⟩) (hd : d = pointScatterDims N M E wf)
    (x : (⟨2, ![N, M]⟩ : Shape).Idx → EReal) (idx : IVec ⟨2, ![E, 2]⟩ w) (upd : (⟨1, ![E]⟩ : Shape).Idx → EReal)
    (i : Fin N) (j : Fin M) :
    Ideal.hostScatterAdd d x idx upd (ix2 i j) =
      x (ix2 i j) + ∑ e ∈ Finset.univ.filter (fun e : Fin E =>
        (idx (ix2 e ⟨0, by omega⟩)).toInt = (i.val : Int) ∧ (idx (ix2 e ⟨1, by omega⟩)).toInt = (j.val : Int)),
        upd (ix1 e) := by
  subst hd
  unfold Ideal.hostScatterAdd
  congr 1
  rw [Finset.sum_filter, sum_idx1, Finset.sum_filter]
  refine Finset.sum_congr rfl fun e _ => ?_
  have hiff := point_resultIdx?_eq_some_iff wf (ix1 e) idx (ix2 i j)
  by_cases h : (idx (ix2 e ⟨0, by omega⟩)).toInt = (i.val : Int) ∧ (idx (ix2 e ⟨1, by omega⟩)).toInt = (j.val : Int)
  · rw [if_pos h, if_pos (hiff.2 h)]
  · rw [if_neg h, if_neg (fun hr => h (hiff.1 hr))]

/-! ## The indexed read of a vector table -/

/-- The dimension numbers of `table[idx]` for a vector table: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- table[idx] for a vector table: the start index, read signed, is clamped into the table. -/
theorem vecGather_apply_of {α : Type} {N E w : Nat} (hN : 0 < N)
    {wf : GatherDims.WF ⟨1, ![N]⟩ ⟨2, ![E, 1]⟩ ⟨1, ![E]⟩ [] [0] [] [0] [] 1 ![1]}
    (d : GatherDims ⟨1, ![N]⟩ ⟨2, ![E, 1]⟩ ⟨1, ![E]⟩) (hd : d = vecGatherDims N E wf)
    (x : (⟨1, ![N]⟩ : Shape).Idx → α) (idx : IVec ⟨2, ![E, 1]⟩ w) (e : Fin E) :
    Host.gather d x idx (ix1 e) =
      x (ix1 ⟨min (idx (ix2 e ⟨0, Nat.one_pos⟩)).toInt.toNat (N - 1), by omega⟩) := by
  subst hd
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-! ## The indexed read of a table of rows -/

/-- The dimension numbers of `table[idx]` for a table of rows: operand `[N, B]`, start indices `[E, 1]`, result
    `[E, B]`, a whole row per start index. -/
abbrev rowGatherDims (N E B : Nat)
    (wf : GatherDims.WF ⟨2, ![N, B]⟩ ⟨2, ![E, 1]⟩ ⟨2, ![E, B]⟩ [1] [0] [] [0] [] 1 ![1, B]) :
    GatherDims ⟨2, ![N, B]⟩ ⟨2, ![E, 1]⟩ ⟨2, ![E, B]⟩ where
  offsetDims := [1]
  collapsedSliceDims := [0]
  operandBatchingDims := []
  startIndicesBatchingDims := []
  startIndexMap := [0]
  indexVectorDim := 1
  sliceSizes := ![1, B]
  wf := wf

/-- table[idx] for a table of rows `[N, B]`: row `e` of the result is the table's row at the clamped index. -/
theorem rowGather_apply_of {α : Type} {N E B w : Nat} (hN : 0 < N)
    {wf : GatherDims.WF ⟨2, ![N, B]⟩ ⟨2, ![E, 1]⟩ ⟨2, ![E, B]⟩ [1] [0] [] [0] [] 1 ![1, B]}
    (d : GatherDims ⟨2, ![N, B]⟩ ⟨2, ![E, 1]⟩ ⟨2, ![E, B]⟩) (hd : d = rowGatherDims N E B wf)
    (x : (⟨2, ![N, B]⟩ : Shape).Idx → α) (idx : IVec ⟨2, ![E, 1]⟩ w) (e : Fin E) (b : Fin B) :
    Host.gather d x idx (ix2 e b) =
      x (ix2 ⟨min (idx (ix2 e ⟨0, Nat.one_pos⟩)).toInt.toNat (N - 1), by omega⟩ b) := by
  subst hd
  unfold Host.gather
  congr 1
  funext a
  refine Fin.ext ?_
  match a with
  | ⟨0, _⟩ =>
    -- the row axis: collapsed and start-indexed, the clamped start alone
    show (rowGatherDims N E B wf).start (ix2 e b) idx 0 + (rowGatherDims N E B wf).batchCoord (ix2 e b) 0
      + (rowGatherDims N E B wf).offCoord (ix2 e b) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E B wf).startIndexMap from List.mem_singleton.mpr rfl)]
    have hsi : (rowGatherDims N E B wf).siIdx (ix2 e b) ⟨List.idxOf (0 : Fin 2) (rowGatherDims N E B wf).startIndexMap,
        List.idxOf_lt_length_iff.2 (List.mem_singleton.mpr rfl)⟩ = ix2 e ⟨0, Nat.one_pos⟩ := by
      funext c; refine Fin.ext ?_
      match c with
      | ⟨0, _⟩ => rfl
      | ⟨1, _⟩ => rfl
    rw [hsi]
    rfl
  | ⟨1, _⟩ =>
    -- the column axis: an offset axis, the result's own column coordinate
    show (rowGatherDims N E B wf).start (ix2 e b) idx 1 + (rowGatherDims N E B wf).batchCoord (ix2 e b) 1
      + (rowGatherDims N E B wf).offCoord (ix2 e b) 1 = b.val
    have hst : (rowGatherDims N E B wf).start (ix2 e b) idx 1 = 0 := by
      unfold GatherDims.start
      rw [dif_neg (show (1 : Fin 2) ∉ (rowGatherDims N E B wf).startIndexMap from
        (by decide : (1 : Fin 2) ∉ ([0] : List (Fin 2))))]
    have hoff : (rowGatherDims N E B wf).offCoord (ix2 e b) 1 = b.val := by
      unfold GatherDims.offCoord
      rw [dif_pos (show (1 : Fin 2) ∈ (rowGatherDims N E B wf).sKept by
        simp [GatherDims.sKept, Shape.kept, List.mem_filter])]
      rfl
    rw [hst, hoff, GatherDims.batchCoord_eq_zero _ _ _ List.not_mem_nil]
    omega

end Cert.LibScatter

end
-- ==== Proof.LibScatterFold.lean ====
/-
  A HOST SCATTER WHOSE BODY IS AN ADDITION, READ AT ONE ELEMENT.

  `stablehlo.scatter` applies its updates one after the other, each replacing the element its index lands on by the
  body of that element and the update; an update whose index is outside the operand is dropped. When the body is the
  addition of a commutative monoid (an integer `.at[idx].add(v)`), the order does not matter and element `i` of the
  result is the operand's element plus the sum of the updates that land on `i`.
-/
import Idealize.ShloMosaic.PureOps.Ideal

noncomputable section

open scoped BigOperators

namespace Cert.LibScatterFold

open Idealize.ShloMosaic

variable {α : Type} [AddCommMonoid α] {s si u : Shape} {w : Nat}

/-- One update applied to `r`, read at `i`: the update is added when it lands on `i`. -/
theorem step_apply (d : ScatterDims s si u) (f : α → α → α) (hf : ∀ a b, f a b = a + b) (idx : IVec si w) (upd : u.Idx → α)
    (r : s.Idx → α) (j : u.Idx) (i : s.Idx) :
    (match d.resultIdx? j idx with
      | some i₀ => fun i' => if i' = i₀ then f (r i₀) (upd j) else r i'
      | none => r) i
      = r i + (if d.resultIdx? j idx = some i then upd j else 0) := by
  cases h : d.resultIdx? j idx with
  | none => simp
  | some i₀ =>
    by_cases hi : i = i₀
    · subst hi; simp [hf]
    · have hne : ¬ (some i₀ = some i) := fun e => hi (Option.some.inj e).symm
      simp [hi, hne]

/-- The fold of the updates `l` over `r`, read at `i`: `r i` plus the updates of `l` that land on `i`. -/
theorem foldl_apply (d : ScatterDims s si u) (f : α → α → α) (hf : ∀ a b, f a b = a + b) (idx : IVec si w) (upd : u.Idx → α)
    (l : List (Fin u.numel)) (r : s.Idx → α) (i : s.Idx) :
    (l.foldl (fun r n =>
        match d.resultIdx? (u.rowMajor.symm n) idx with
        | some i₀ => fun i' => if i' = i₀ then f (r i₀) (upd (u.rowMajor.symm n)) else r i'
        | none => r) r) i
      = r i + (l.map fun n => if d.resultIdx? (u.rowMajor.symm n) idx = some i then upd (u.rowMajor.symm n) else 0).sum := by
  induction l generalizing r with
  | nil => simp
  | cons a l ih =>
    rw [List.foldl_cons, ih, List.map_cons, List.sum_cons, ← add_assoc]
    congr 1
    exact step_apply d f hf idx upd r (u.rowMajor.symm a) i

/-- Element `i` of a scatter with an additive body: the operand's element plus the sum of the updates whose index
    lands on `i`. -/
theorem scatter_add_apply (d : ScatterDims s si u) (f : α → α → α) (hf : ∀ a b, f a b = a + b) (x : s.Idx → α)
    (idx : IVec si w) (upd : u.Idx → α) (i : s.Idx) :
    Host.scatter d f x idx upd i = x i + ∑ j : u.Idx, if d.resultIdx? j idx = some i then upd j else 0 := by
  unfold Host.scatter
  refine (foldl_apply d f hf idx upd (List.finRange u.numel) x i).trans ?_
  rw [← Fin.sum_univ_def]
  congr 1
  exact Equiv.sum_comp u.rowMajor.symm (fun j => if d.resultIdx? j idx = some i then upd j else 0)

end Cert.LibScatterFold

end
-- ==== Proof.RefValue.lean ====
/-
  The reference's raster, row by row.

  The reference scatters a one into a zero raster of 50176 rows and 1000 steps at the position `(e, T e)` for each
  flat pixel `e`, where `T e` is the pixel's latency word; an index word that is negative read signed is first moved
  up by the axis length, and a position outside the raster is dropped. The row word of update `e` is `e` itself, so
  only update `r` can land in row `r`; the latency of a finite intensity is non-negative, so its word is not moved.
  Entry `(r, q)` of the result is therefore one exactly when the latency of pixel `r`, read signed, is `q`: the
  one-hot row of that latency.
-/
import proofs.«105358_j11476152615371_1_alg».proof.Proof.Gen.ReferenceIdeal.Read
import proofs.«105358_j11476152615371_1_alg».proof.Proof.Latency
import proofs.«105358_j11476152615371_1_alg».proof.Proof.LibScatter
import proofs.«105358_j11476152615371_1_alg».proof.Proof.LibScatterFold
import Idealize.ShloMosaic.Lib.ValueIdx
import Idealize.ShloMosaic.Lib.Pipeline.Value
import Mathlib.Data.BitVec

noncomputable section

open scoped BigOperators

namespace Cert.ReferenceIdeal.RefValue

open Cert.ReferenceIdeal Cert.ReferenceIdeal.Read Idealize.ShloMosaic Idealize.ShloMosaic.ValueIdx Cert.Spike

variable (x0 : (⟨S64x784, .f32⟩ : BufTy).Contents (Elt Ideal))

/-- The flattened image at `e` is the intensity of pixel `pix e`. -/
theorem flat_apply (e : Fin 50176) : val_main_v0 (F := Ideal) x0 (ix1 e) = x0 (pix e) := by
  rw [val_main_v0_apply]
  congr 1
  funext a
  match a with
  | ⟨0, _⟩ => rfl
  | ⟨1, _⟩ => rfl

/-- The latency word the reference computes for flat pixel `e`. -/
theorem word_apply (e : Fin 50176) : val_main_v13 (F := Ideal) x0 (ix1 e) = latency (x0 (pix e)) := by
  rw [← latency_of_reference_ops, val_main_v13_apply, val_main_v12_apply, val_main_v11_apply, val_main_v9_apply,
    val_main_v7_apply, val_main_v6_apply, val_main_v5_apply, val_main_v4_apply, val_main_v2_apply,
    val_main_v1_apply, val_main_v3_apply, val_main_v8_apply, val_main_v10_apply, val_main_call0_v1_apply,
    val_main_call1_v1_apply, flat_apply]
  rfl

/-- A word that is non-negative read signed is not below zero: a selection on `T < 0` takes its second branch. -/
theorem select_slt_zero {α : Type} (T : BitVec 32) (h : 0 ≤ T.toInt) (a b : α) :
    Scalar.select (IntOp.cmpi .slt T 0#32) a b = b := by
  have hs : T.slt 0#32 = false := by
    rw [BitVec.slt_eq_decide]; simp; omega
  unfold Scalar.select IntOp.cmpi
  rw [hs]; rfl

/-- The row word of update `e` is `e`: the flat index is never negative, so it is not moved. -/
theorem row_word (e : Fin 50176) :
    val_main_v29 (F := Ideal) x0 (ix2 e (⟨0, by omega⟩ : Fin 2)) = BitVec.ofNat 32 e.val := by
  unfold val_main_v29
  rw [concatenate_pair_apply_left (t := S50176x2) (s₁ := S50176x1) (s₂ := S50176x1) (1 : Fin 2) _ _ _ (ix2 e (⟨0, by omega⟩ : Fin 2)) rfl
    (ix2 e (0 : Fin 1)) (fun b => match b with | ⟨0, _⟩ => rfl | ⟨1, _⟩ => rfl)]
  rw [val_main_v27_apply, val_main_v21_apply, val_main_v18_apply, val_main_v17_apply, val_main_v14_apply]
  exact select_slt_zero _ (by
    show 0 ≤ (BitVec.ofNat 32 e.val).toInt
    rw [BitVec.toInt_eq_toNat_of_lt (by rw [BitVec.toNat_ofNat]; have := e.isLt; omega)]; omega) _ _

/-- The column word of update `e` is the latency of pixel `e`: for a finite intensity it is non-negative, so it is
    not moved. -/
theorem col_word (e : Fin 50176) (hx : ∃ r : ℝ, x0 (pix e) = (r : EReal)) :
    val_main_v29 (F := Ideal) x0 (ix2 e (⟨1, by omega⟩ : Fin 2)) = latency (x0 (pix e)) := by
  unfold val_main_v29
  rw [concatenate_pair_apply_right (t := S50176x2) (s₁ := S50176x1) (s₂ := S50176x1) (1 : Fin 2) _ _ _ (ix2 e (⟨1, by omega⟩ : Fin 2)) rfl rfl
    (ix2 e (0 : Fin 1)) (fun b hb => match b, hb with | ⟨0, _⟩, _ => rfl | ⟨1, _⟩, hb => absurd rfl hb) rfl]
  rw [val_main_v28_apply, val_main_v26_apply, val_main_v23_apply, val_main_v22_apply]
  have hw : val_main_v13 (F := Ideal) x0 (idx_main_v28 (ix2 e (0 : Fin 1))) = latency (x0 (pix e)) := word_apply x0 e
  rw [hw]
  obtain ⟨r, hr⟩ := hx
  exact select_slt_zero _ (by rw [hr]; exact latency_toInt_nonneg r) _ _

/-- The scatter's dimension numbers are those of `A.at[rows, cols].add(v)`. -/
theorem dims_eq : scatter_S50176x1000_S50176x2_S50176_n_01_01_1
    = Cert.LibScatter.pointScatterDims 50176 1000 50176 Gen.scatter_S50176x1000_S50176x2_S50176_n_01_01_1_wf := rfl

/-- Update `e` lands on entry `(r, q)` exactly when `e` is `r` and the latency of pixel `e`, read signed, is `q`. -/
theorem lands_iff (hx : ∀ i, ∃ r : ℝ, x0 i = (r : EReal)) (e r : Fin 50176) (q : Fin 1000) :
    scatter_S50176x1000_S50176x2_S50176_n_01_01_1.resultIdx? (ix1 e) (val_main_v29 (F := Ideal) x0) = some (ix2 r q)
      ↔ e = r ∧ (latency (x0 (pix e))).toInt = (q.val : ℤ) := by
  rw [dims_eq, Cert.LibScatter.point_resultIdx?_eq_some_iff]
  have h0 := row_word x0 e
  have h1 := col_word x0 e (hx _)
  show (val_main_v29 (F := Ideal) x0 (ix2 e (⟨0, by omega⟩ : Fin 2))).toInt = (r.val : ℤ)
      ∧ (val_main_v29 (F := Ideal) x0 (ix2 e (⟨1, by omega⟩ : Fin 2))).toInt = (q.val : ℤ) ↔ _
  rw [h0, h1, BitVec.toInt_eq_toNat_of_lt (by rw [BitVec.toNat_ofNat]; have := e.isLt; omega), BitVec.toNat_ofNat]
  constructor
  · rintro ⟨ha, hb⟩
    exact ⟨Fin.ext (by have := e.isLt; omega), hb⟩
  · rintro ⟨rfl, hb⟩
    exact ⟨by have := e.isLt; omega, hb⟩

/-- THE REFERENCE'S RASTER: for finite intensities the scatter's result is the raster, row by row. -/
theorem scatter_rows (hx : ∀ i, ∃ r : ℝ, x0 i = (r : EReal)) : val_main_v30 (F := Ideal) x0 = rows x0 := by
  funext i
  obtain ⟨r, q, rfl⟩ : ∃ (r : Fin 50176) (q : Fin 1000), i = ix2 r q := ⟨i 0, i 1, eq_ix2 i⟩
  unfold val_main_v30
  rw [Cert.LibScatterFold.scatter_add_apply (α := BitVec 32) _ IntOp.addi (fun _ _ => rfl), rows_apply, spike_eq _ _ q.isLt,
    Cert.LibScatter.sum_idx1, val_main_v15_apply, val_main_c_4_apply]
  have hsum : (∑ e : Fin 50176, if scatter_S50176x1000_S50176x2_S50176_n_01_01_1.resultIdx? (ix1 e)
        (val_main_v29 (F := Ideal) x0) = some (ix2 r q) then val_main_v16 (F := Ideal) (ix1 e) else 0)
      = if (latency (x0 (pix r))).toInt = (q.val : ℤ) then 1#32 else 0#32 := by
    rw [Finset.sum_eq_single r]
    · rw [val_main_v16_apply, val_main_c_5_apply]
      by_cases h : (latency (x0 (pix r))).toInt = (q.val : ℤ)
      · rw [if_pos ((lands_iff x0 hx r r q).2 ⟨rfl, h⟩), if_pos h]
      · rw [if_neg (fun hl => h ((lands_iff x0 hx r r q).1 hl).2), if_neg h]; rfl
    · intro e _ hne
      exact if_neg (fun hl => hne ((lands_iff x0 hx e r q).1 hl).1)
    · intro h; exact absurd (Finset.mem_univ r) h
  rw [hsum]
  exact BitVec.zero_add _

end Cert.ReferenceIdeal.RefValue

end
-- ==== Proof.Finite.lean ====
/-
  Finite inputs are real numbers.

  The precondition says that every entry of the image has an absolute value below +∞. On the extended reals the
  absolute value of either infinity is +∞, which is not below itself, so every entry is a real number.
-/
import proofs.«105358_j11476152615371_1_alg».proof.Pre_finite_inputs
import proofs.«105358_j11476152615371_1_alg».proof.Proof.Gen.Pre_finite_inputs
import Idealize.ShloMosaic.Lib.ReduceAll
import Idealize.ShloMosaic.Lib.ValueIdx

noncomputable section

namespace Cert.Proof.Finite

open Idealize.ShloMosaic Idealize.ShloMosaic.ValueIdx

instance : Subsingleton Cert.Pre_finite_inputs.S_.Idx := ⟨fun a b => funext fun d => d.elim0⟩

/-- The pattern `0x7F800000` is +∞. -/
theorem inf_eq : Ideal.ofBits .f32 0x7F800000#32 = ⊤ := by
  simp [Ideal.ofBits, Ideal.ieee]

/-- An extended real whose absolute value is below +∞ is a real number. -/
theorem real_of_abs_lt_top (x : EReal) (h : Ideal.cmp .olt (max x (-x)) ⊤ = 1#1) : ∃ r : ℝ, x = (r : EReal) := by
  induction x using EReal.rec with
  | bot => exfalso; simp [Ideal.cmp] at h
  | top => exfalso; simp [Ideal.cmp] at h
  | coe r => exact ⟨r, rfl⟩

/-- Under the precondition every entry of the image is a real number. -/
theorem real_of_pre (x : FVec Ideal Cert.Pre_finite_inputs.S64x784 .f32)
    (h : Cert.Pre_finite_inputs.fn (F := Ideal) x = fun _ => 1#1) (i : Cert.Pre_finite_inputs.S64x784.Idx) :
    ∃ r : ℝ, x i = (r : EReal) := by
  have h0 := congrFun h ix0
  dsimp only [Cert.Pre_finite_inputs.fn] at h0
  have hi := Host.reduce_andi_all _ _ _ _ _ h0 i
  refine real_of_abs_lt_top (x i) ?_
  rw [← inf_eq]
  exact hi

end Cert.Proof.Finite

end
-- ==== Proof.lean ====
/-
  Intensity to spike latency: the kernel's raster equals the reference's.

  Both programs map an image `x : f32[64, 784]` to a raster `i32[64, 784, 1000]`. A pixel above the threshold
  `θ = f32(0.2)` fires at the step `T = trunc (log (x / (x - θ)) · c)`, a pixel at or below it gets `T = 1000`; the
  pixel's raster row has a one at step `T` (none when `T` is not a step) and zeros elsewhere.

  The kernel builds each row by comparing the step counter with `T`. The reference scatters a one at `(pixel, T)` into
  a zero raster, first moving an index word that is negative up by the axis length, and dropping a position outside
  the raster. The row word of an update is its own pixel's number, so at most one update reaches each row, and the
  sum that a scatter-add leaves at an entry is the single one or nothing. For a FINITE intensity above threshold the
  ratio `x / (x - θ)` is at least one, its logarithm is non-negative, and so is `T`: the index word is never moved, and
  the entry is one exactly when `T`, read signed, is the step. The precondition (every entry of the image finite) is
  used for exactly this.

  The two programs scale the logarithm as `L · c` and as `(f32(0.05) · L) · 1000`, with the kernel's folded constant
  `c` named `f32(0.05) · 1000 = 1677721625 / 33554432`: the same extended real, by commutativity and associativity
  of the product.

  Proof/Latency.lean has the scalar mathematics and the raster as a function of the image; Proof/KernelValue.lean
  reads the kernel's result off its frame run (blocks of 1024 rows tiling the 50176); Proof/RefValue.lean reads the
  reference's scatter at one entry; Proof/Finite.lean turns the precondition into "every entry is a real number".
-/
import proofs.«105358_j11476152615371_1_alg».proof.Defs
import proofs.«105358_j11476152615371_1_alg».proof.Proof.Gen.Kernel
import proofs.«105358_j11476152615371_1_alg».proof.Proof.Gen.Kernel.Skeleton
import proofs.«105358_j11476152615371_1_alg».proof.Proof.Gen.Kernel.Launch
import proofs.«105358_j11476152615371_1_alg».proof.Proof.Gen.Kernel.Points
import proofs.«105358_j11476152615371_1_alg».proof.Proof.Gen.Kernel.Frame
import proofs.«105358_j11476152615371_1_alg».proof.Proof.Gen.KernelIdeal
import proofs.«105358_j11476152615371_1_alg».proof.Proof.Gen.KernelIdeal.Skeleton
import proofs.«105358_j11476152615371_1_alg».proof.Proof.Gen.KernelIdeal.Launch
import proofs.«105358_j11476152615371_1_alg».proof.Proof.Gen.KernelIdeal.Points
import proofs.«105358_j11476152615371_1_alg».proof.Proof.Gen.KernelIdeal.Frame
import proofs.«105358_j11476152615371_1_alg».proof.Proof.Gen.ReferenceIdeal
import proofs.«105358_j11476152615371_1_alg».proof.Proof.Gen.Pre_finite_inputs
import proofs.«105358_j11476152615371_1_alg».proof.Proof.Gen.ReferenceIdeal.Run
import proofs.«105358_j11476152615371_1_alg».proof.Proof.Gen.ReferenceIdeal.Read
import proofs.«105358_j11476152615371_1_alg».proof.Proof.KernelValue
import proofs.«105358_j11476152615371_1_alg».proof.Proof.RefValue
import proofs.«105358_j11476152615371_1_alg».proof.Proof.Finite
import Idealize.ShloMosaic.Adequacy
import Idealize.ShloMosaic.Init

noncomputable section

namespace Cert.Proof

open Idealize.ShloMosaic Idealize.SL.Sem

/-- The word-level kernel runs and keeps its argument. -/
theorem frame_kernel : Cert.frame_Kernel := fun m ρ _ => Cert.Kernel.Gen.frame m ρ

/-- The idealized kernel runs and keeps its argument. -/
theorem frame_kernel_ideal : Cert.frame_KernelIdeal := fun m ρ _ => Cert.KernelIdeal.Gen.frame m ρ

/-- The reference runs and keeps its argument: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one named constant: the table gives the kernel's `50.0` the value `f32(0.05) · 1000`. -/
theorem preserves : Cert.preserves_Kernel_KernelIdeal :=
  IdealRules.named_const.statement Cert.KernelIdeal.κ "t_eff_n" .f32 0x42480000#32
    ((1677721625 / 33554432 : ℝ) : EReal) rfl

/-- Both programs end with the raster of the image, reshaped to 64 x 784 x 1000: the kernel's blocks tile it, and the
    reference's scatter leaves it because the image's entries are real numbers. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, hagree c]
  unfold Cert.ReferenceIdeal.Read.val_main_v31
  rw [Cert.ReferenceIdeal.RefValue.scatter_rows _ (fun i => Cert.Proof.Finite.real_of_pre _ (hpre c) i)]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
